-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : FVec F S128x128 .f32) (main_arg2 : FVec F S128 .f32) (main_arg3 : FVec F S128 .f32) (main_arg4 : FVec F S128 .f32) (main_arg5 : IVec S1600000 32) (main_arg6 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_v13 main_v16
-- ==== Kernel.lean ====
abbrev S100000x128 : Shape := ⟨2, ![100000, 128]⟩
abbrev S128x128 : Shape := ⟨2, ![128, 128]⟩
abbrev S128 : Shape := ⟨1, ![128]⟩
abbrev S1600000 : Shape := ⟨1, ![1600000]⟩
abbrev S1x128 : Shape := ⟨2, ![1, 128]⟩
abbrev S5000x128 : Shape := ⟨2, ![5000, 128]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S5000x1 : Shape := ⟨2, ![5000, 1]⟩
abbrev S5000 : Shape := ⟨1, ![5000]⟩

abbrev nBuf : Space → Nat
  | .hbm => 43
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S1600000, .i32⟩
  | .hbm, ⟨6, _⟩ => ⟨S1600000, .i32⟩
  | .hbm, ⟨7, _⟩ => ⟨S128x128, .f32⟩
  | .hbm, ⟨8, _⟩ => ⟨S1x128, .f32⟩
  | .hbm, ⟨9, _⟩ => ⟨S100000x128, .f32⟩
  | .hbm, ⟨10, _⟩ => ⟨S_, .f32⟩
  | .hbm, ⟨11, _⟩ => ⟨S1600000, .f32⟩
  | .hbm, ⟨12, _⟩ => ⟨S_, .f32⟩
  | .hbm, ⟨13, _⟩ => ⟨S100000, .f32⟩
  | .hbm, ⟨14, _⟩ => ⟨S1600000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .i1⟩
  | .hbm, ⟨19, _⟩ => ⟨S_, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000x1, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000x128, .f32⟩
  | .hbm, ⟨36, _⟩ => ⟨S_, .f32⟩
  | .hbm, ⟨37, _⟩ => ⟨S100000x128, .f32⟩
  | .hbm, ⟨38, _⟩ => ⟨S1600000x1, .i32⟩
  | .hbm, ⟨39, _⟩ => ⟨S100000x128, .f32⟩
  | .hbm, ⟨40, _⟩ => ⟨S1x128, .f32⟩
  | .hbm, ⟨41, _⟩ => ⟨S1x128, .f32⟩
  | .hbm, ⟨42, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x1, .f32⟩
  | .local _ .vmem, ⟨11, _⟩ => ⟨S5000x1, .f32⟩
  | .local _ .vmem, ⟨12, _⟩ => ⟨S1x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_call0_v0 : Ref sig .tc := ⟨.hbm, 20, rfl⟩
abbrev main_call0_v1 : Ref sig .tc := ⟨.hbm, 21, rfl⟩
abbrev main_v9 : Ref sig .tc := ⟨.hbm, 22, rfl⟩
abbrev main_cst_3 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_c : Ref sig .tc := ⟨.hbm, 27, rfl⟩
abbrev main_v13 : Ref sig .tc := ⟨.hbm, 28, rfl⟩
abbrev main_v14 : Ref sig .tc := ⟨.hbm, 29, rfl⟩
abbrev main_c_4 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_5 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bcast_S_S100000x128 : S_.BroadcastsInDim S100000x128 (![] : Fin 0 → Fin S100000x128.rank)
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  reduces_S5000x128_S5000 : S5000x128.Reduces [1] S5000
  shapeCasts_S5000_S5000x1 : S5000.ShapeCasts S5000x1
  dot_S5000x128_S128x128_S5000x128_1_0_0_1_n_n_wf : DotDims.WF S5000x128 S128x128 S5000x128 [1] [0] [0] [1] [] []
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v23) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v24) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v25) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S1600000 : Shape := ⟨1, ![1600000]⟩
abbrev S1x128 : Shape := ⟨2, ![1, 128]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩

abbrev nBuf : Space → Nat
  | .hbm => 64
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S1600000, .i32⟩
  | .hbm, ⟨6, _⟩ => ⟨S1600000, .i32⟩
  | .hbm, ⟨7, _⟩ => ⟨S128x128, .f32⟩
  | .hbm, ⟨8, _⟩ => ⟨S100000x128, .f32⟩
  | .hbm, ⟨9, _⟩ => ⟨S1x128, .f32⟩
  | .hbm, ⟨10, _⟩ => ⟨S100000x128, .f32⟩
  | .hbm, ⟨11, _⟩ => ⟨S100000x128, .f32⟩
  | .hbm, ⟨12, _⟩ => ⟨S_, .f32⟩
  | .hbm, ⟨13, _⟩ => ⟨S100000x128, .f32⟩
  | .hbm, ⟨14, _⟩ => ⟨S100000x128, .f32⟩
  | .hbm, ⟨15, _⟩ => ⟨S_, .f32⟩
  | .hbm, ⟨16, _⟩ => ⟨S1600000, .f32⟩
  | .hbm, ⟨17, _⟩ => ⟨S_, .f32⟩
  | .hbm, ⟨18, _⟩ => ⟨S100000, .f32⟩
  | .hbm, ⟨19, _⟩ => ⟨S1600000x1, .i32⟩
  | .hbm, ⟨20, _⟩ => ⟨S100000, .f32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000x128, .f32⟩
  | .hbm, ⟨30, _⟩ => ⟨S_, .f32⟩
  | .hbm, ⟨31, _⟩ => ⟨S100000x128, .f32⟩
  | .hbm, ⟨32, _⟩ => ⟨S1600000x1, .i32⟩
  | .hbm, ⟨33, _⟩ => ⟨S100000x128, .f32⟩
  | .hbm, ⟨34, _⟩ => ⟨S_, .f32⟩
  | .hbm, ⟨35, _⟩ => ⟨S100000, .f32⟩
  | .hbm, ⟨36, _⟩ => ⟨S100000, .i1⟩
  | .hbm, ⟨37, _⟩ => ⟨S_, .f32⟩
  | .hbm, ⟨38, _⟩ => ⟨S_, .f32⟩
  | .hbm, ⟨39, _⟩ => ⟨S100000, .f32⟩
  | .hbm, ⟨40, _⟩ => ⟨S100000, .f32⟩
  | .hbm, ⟨41, _⟩ => ⟨S100000x1, .f32⟩
  | .hbm, ⟨42, _⟩ => ⟨S100000x128, .f32⟩
  | .hbm, ⟨43, _⟩ => ⟨S100000x128, .f32⟩
  | .hbm, ⟨44, _⟩ => ⟨S100000x128, .f32⟩
  | .hbm, ⟨45, _⟩ => ⟨S100000x128, .f32⟩
  | .hbm, ⟨46, _⟩ => ⟨S_, .f32⟩
  | .hbm, ⟨47, _⟩ => ⟨S100000, .f32⟩
  | .hbm, ⟨48, _⟩ => ⟨S100000x1, .f32⟩
  | .hbm, ⟨49, _⟩ => ⟨S_, .f32⟩
  | .hbm, ⟨50, _⟩ => ⟨S100000x1, .f32⟩
  | .hbm, ⟨51, _⟩ => ⟨S100000x1, .f32⟩
  | .hbm, ⟨52, _⟩ => ⟨S_, .f32⟩
  | .hbm, ⟨53, _⟩ => ⟨S100000x1, .f32⟩
  | .hbm, ⟨54, _⟩ => ⟨S100000x1, .f32⟩
  | .hbm, ⟨55, _⟩ => ⟨S100000x1, .f32⟩
  | .hbm, ⟨56, _⟩ => ⟨S100000x128, .f32⟩
  | .hbm, ⟨57, _⟩ => ⟨S100000x128, .f32⟩
  | .hbm, ⟨58, _⟩ => ⟨S1x128, .f32⟩
  | .hbm, ⟨59, _⟩ => ⟨S100000x128, .f32⟩
  | .hbm, ⟨60, _⟩ => ⟨S100000x128, .f32⟩
  | .hbm, ⟨61, _⟩ => ⟨S1x128, .f32⟩
  | .hbm, ⟨62, _⟩ => ⟨S100000x128, .f32⟩
  | .hbm, ⟨63, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_cst : Ref sig .tc := ⟨.hbm, 12, rfl⟩
abbrev main_call0_v0 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c : Ref sig .tc := ⟨.hbm, 21, rfl⟩
abbrev main_v10 : Ref sig .tc := ⟨.hbm, 22, rfl⟩
abbrev main_v11 : Ref sig .tc := ⟨.hbm, 23, rfl⟩
abbrev main_c_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_3 : Ref sig .tc := ⟨.hbm, 34, rfl⟩
abbrev main_v20 : Ref sig .tc := ⟨.hbm, 35, rfl⟩
abbrev main_v21 : Ref sig .tc := ⟨.hbm, 36, rfl⟩
abbrev main_cst_4 : Ref sig .tc := ⟨.hbm, 37, rfl⟩
abbrev main_call1_v0 : Ref sig .tc := ⟨.hbm, 38, rfl⟩
abbrev main_call1_v1 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_5 : Ref sig .tc := ⟨.hbm, 46, rfl⟩
abbrev main_v28 : Ref sig .tc := ⟨.hbm, 47, rfl⟩
abbrev main_v29 : Ref sig .tc := ⟨.hbm, 48, rfl⟩
abbrev main_cst_6 : Ref sig .tc := ⟨.hbm, 49, rfl⟩
abbrev main_v30 : Ref sig .tc := ⟨.hbm, 50, rfl⟩
abbrev main_v31 : Ref sig .tc := ⟨.hbm, 51, rfl⟩
abbrev main_cst_7 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  reducesTo_S100000x128_S100000_d1 : S100000x128.ReducesTo [1] S100000
  h_S_ : 0 < S_.numel
  bcast_S_S100000x1 : S_.BroadcastsInDim S100000x1 (![] : Fin 0 → Fin S100000x1.rank)
  dot_S100000x128_S128x128_S100000x128_1_0_0_1_n_n_wf : DotDims.WF S100000x128 S128x128 S100000x128 [1] [0] [0] [1] [] []
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.Spec.lean ====
/-
  The mathematics both programs compute, entry by entry, over the extended reals.

  A graph-convolution layer on N = 100000 nodes with H = 128 features:
    * a message per node, `relu (x · Wt + b)`: entry (r, j) is `max (∑ k, x r k * Wt k j + b j) 0`;
    * an aggregate `agg` of messages along edges and a degree count, both produced by the same host operations in
      the two programs and carried here as opaque arrays;
    * the residual `h r j = x r j + agg r j / dd r`, where `dd r` is the degree with zero replaced by one — the
      kernel multiplies by the reciprocal `1 / dd r` instead of dividing;
    * the row-wise RMS normalisation `h r j * rsqrt ((∑ k, h r k * h r k) / 128 + ε) * γ j + β j`.
  The one law joining the two forms of `h`: for `d ≠ 0`, `a * (1 / d) = a / d` on the extended reals
  (both are `a * d⁻¹`).
-/
import Idealize.ShloMosaic.PureOps.Ideal
import Idealize.ShloMosaic.PureOps.Ideal.Laws
import Idealize.ShloMosaic.Lib.ValueIdx
import Idealize.ShloMosaic.Lib.IdealHost

noncomputable section

open scoped BigOperators

namespace Cert.Spec

open Idealize.ShloMosaic Idealize.ShloMosaic.ValueIdx

/-- Node features, messages and the result: [100000, 128]. -/
abbrev Snh : Shape := ⟨2, ![100000, 128]⟩
/-- The (transposed) weight: [128, 128]. -/
abbrev Shh : Shape := ⟨2, ![128, 128]⟩

/-- The message of node `r`, feature `j`: `max (∑ k, x r k * wt k j + b j) 0`. -/
def linReluAt (x : Snh.Idx → EReal) (wt : Shh.Idx → EReal) (b : Fin 128 → EReal) (r : Fin 100000) (j : Fin 128) : EReal :=
  max ((∑ k : Fin 128, x (ix2 r k) * wt (ix2 k j)) + b j) (Ideal.ofBits .f32 0x00000000#32)

/-- The message array. -/
def linRelu (x : Snh.Idx → EReal) (wt : Shh.Idx → EReal) (b : Fin 128 → EReal) : Snh.Idx → EReal :=
  fun i => linReluAt x wt b ⟨(i 0).val, idx2_lt0 i⟩ ⟨(i 1).val, idx2_lt1 i⟩

theorem linRelu_ix2 (x : Snh.Idx → EReal) (wt : Shh.Idx → EReal) (b : Fin 128 → EReal) (r : Fin 100000) (j : Fin 128) :
    linRelu x wt b (ix2 r j) = linReluAt x wt b r j := rfl

/-- The residual in the reference's form: the aggregate DIVIDED by the clamped degree. -/
def resDiv (x agg : Snh.Idx → EReal) (dd : Fin 100000 → EReal) (r : Fin 100000) (j : Fin 128) : EReal :=
  x (ix2 r j) + Ideal.div (agg (ix2 r j)) (dd r)

/-- The residual in the kernel's form: the aggregate TIMES a per-row factor. -/
def resMul (x agg : Snh.Idx → EReal) (inv : Fin 100000 → EReal) (r : Fin 100000) (j : Fin 128) : EReal :=
  x (ix2 r j) + agg (ix2 r j) * inv r

/-- The normalised entry (r, j) of a pre-norm array `h`: `h r j * rsqrt ((∑ k, h r k * h r k) / 128 + ε) * γ j + β j`. -/
def normAt (h : Fin 100000 → Fin 128 → EReal) (g bt : Fin 128 → EReal) (r : Fin 100000) (j : Fin 128) : EReal :=
  h r j * Ideal.rsqrt (Ideal.div (∑ k : Fin 128, h r k * h r k) (Ideal.ofBits .f32 0x43000000#32) + Ideal.ofBits .f32 0x3727C5AC#32) * g j + bt j

/-- The result array. -/
def out (h : Fin 100000 → Fin 128 → EReal) (g bt : Fin 128 → EReal) : Snh.Idx → EReal :=
  fun i => normAt h g bt ⟨(i 0).val, idx2_lt0 i⟩ ⟨(i 1).val, idx2_lt1 i⟩

theorem out_ix2 (h : Fin 100000 → Fin 128 → EReal) (g bt : Fin 128 → EReal) (r : Fin 100000) (j : Fin 128) :
    out h g bt (ix2 r j) = normAt h g bt r j := rfl

/-- On the extended reals, multiplying by the reciprocal of a nonzero `d` is dividing by it: both are `a * d⁻¹`. -/
theorem mul_one_div (a d : EReal) (hd : d ≠ 0) : a * Ideal.div (Ideal.ofBits .f32 0x3F800000#32) d = Ideal.div a d := by
  rw [Idealize.ShloMosaic.Ideal.ofBits_one_f32]
  unfold Ideal.div
  rw [if_neg hd, if_neg hd, one_mul]

/-- The two forms of the residual agree when the per-row factor is the reciprocal of a nonzero clamped degree. -/
theorem resMul_eq_resDiv (x agg : Snh.Idx → EReal) (dd : Fin 100000 → EReal) (hdd : ∀ r, dd r ≠ 0) :
    resMul x agg (fun r => Ideal.div (Ideal.ofBits .f32 0x3F800000#32) (dd r)) = resDiv x agg dd := by
  funext r j
  unfold resMul resDiv
  rw [mul_one_div _ _ (hdd r)]

end Cert.Spec

end
-- ==== Proof.Region0.lean ====
/-
  The first kernel region (the linear layer with relu), read as a value at the ideal instance: whatever the
  TensorCore's buffers hold when the region is entered (`V`), its result array ends holding
  `relu (x · Wt + b)` of the arrays its three input windows read — entry (r, j) is
  `max (∑ k, x r k * Wt k j + b 0 j) 0`.
-/
import proofs.«153998_j59330678227073_1_alg».proof.Proof.Gen.KernelIdeal.Frame
import proofs.«153998_j59330678227073_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open scoped BigOperators
open Idealize.ShloMosaic Idealize.ShloMosaic.TcCoe Idealize.SL.Sem
open Idealize.ShloMosaic.Pipeline (Dat)
open Idealize.ShloMosaic.ValueIdx

namespace Cert.KernelIdeal.Region0

open Cert.KernelIdeal Cert.KernelIdeal.Gen

variable (V : (c : Dev nD) → (b : Ref sig .tc) → Buf (Elt Ideal) ((c : Thread nD τ).loc b))

/-- The two zero offsets as the constant-zero offset. -/
theorem hz : (![0, 0] : Fin 2 → Nat) = fun _ => 0 := funext fun a => match a with | ⟨0, _⟩ => rfl | ⟨1, _⟩ => rfl

/-! ## The product's operand indices: at output (p, q) and contraction index k they are (p, k) and (k, q) -/

theorem lhs_dot_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_dot_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_dot_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_dot_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The block product at (p, q) is the sum over k of x0 (p, k) * x1 (k, q). -/
theorem dot_apply (x0 : FVec Ideal S5000x128 .bf16) (x1 : FVec Ideal S128x128 .bf16) (p : Fin 5000) (q : Fin 128) :
    FloatOps.matmul dot_S5000x128_S128x128_S5000x128_1_0_0_1_n_n none x0 x1 (constant (F := Ideal) S5000x128 .f32 0x00000000#32) (ix2 p q)
      = ∑ k : Fin 128, x0 (ix2 p k) * x1 (ix2 k q) := by
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_dot_0 _ _
    | ⟨1, _⟩ => exact (lhs_dot_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_dot_0 _ _).trans hk
    | ⟨1, _⟩ => exact rhs_dot_1 _ _)
  rw [el, er]

/-- The body's arithmetic at an index of the block: relu of the row of x0 times the column of x1 plus the bias. -/
theorem pay_apply (x0 : Vec Ideal S5000x128 .f32) (x1 : Vec Ideal S128x128 .f32) (x2 : Vec Ideal S1x128 .f32) (p : Fin 5000) (q : Fin 128) :
    k0_pay1 (F := Ideal) x0 x1 x2 (ix2 p q)
      = max ((∑ k : Fin 128, x0 (ix2 p k) * x1 (ix2 k q)) + x2 (ix2 0 q)) (Ideal.ofBits .f32 0x00000000#32) := by
  unfold k0_pay1
  simp only [shapeCast_self]
  show max (FloatOps.matmul dot_S5000x128_S128x128_S5000x128_1_0_0_1_n_n none (truncf .bf16 x0 bitsLt_bf16_f32) (truncf .bf16 x1 bitsLt_bf16_f32) (constant (F := Ideal) S5000x128 .f32 0x00000000#32) (ix2 p q)
      + broadcastTo S5000x128 x2 broadcasts_S1x128_S5000x128 (ix2 p q)) (Ideal.ofBits .f32 0x00000000#32) = _
  rw [dot_apply, broadcastTo_apply x2 broadcasts_S1x128_S5000x128 (ix2 p q) (ix2 0 q) (fun a => match a with
    | ⟨0, _⟩ => by show (0 : Nat) = if (1 : Nat) = 1 then 0 else _; rw [if_pos rfl]
    | ⟨1, _⟩ => by show q.val = if (128 : Nat) = 1 then 0 else q.val; rw [if_neg (by decide)])]
  rfl

/-! ## The windows' block indices over the grid -/

/-- The row-block windows (the node features and the result) sit at block (t, 0) at point t; the weight's and the
    bias's windows do not move. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-! ## Each input window's block at a point, as entries of its array -/

/-- The node-features window's block at point t is rows 5000 t … 5000 t + 4999 of the array. -/
theorem iblk0_0_apply (c : Dev nD) (t : Fin cfg0.N) (x : S5000x128.Idx) (k : S100000x128.Idx)
    (hk0 : (k 0).val = 5000 * t.val + (x 0).val) (hk1 : (k 1).val = (x 1).val) :
    (iblk0 (F := Ideal) V c 0 t : Vec Ideal S5000x128 .f32) x = (V c main_arg0 : S100000x128.Idx → EReal) k := by
  obtain ⟨e0, e1, -⟩ := idx_facts t
  unfold iblk0
  rw [View.read_apply]
  show V c main_arg0 _ = V c main_arg0 _
  congr 1
  funext a
  apply Fin.ext
  match a with
  | ⟨0, _⟩ => show win0_0.index t 0 * 5000 + 1 * (x 0).val = (k 0).val; rw [e0, hk0]; omega
  | ⟨1, _⟩ => show win0_0.index t 1 * 128 + 1 * (x 1).val = (k 1).val; rw [e1, hk1]; omega

/-- The weight's window's block at every point is the whole array. -/
theorem iblk0_1_apply (c : Dev nD) (t : Fin cfg0.N) (x : S128x128.Idx) :
    (iblk0 (F := Ideal) V c 1 t : Vec Ideal S128x128 .f32) x = (V c main_v0 : S128x128.Idx → EReal) x := by
  obtain ⟨-, -, e2, e3, -⟩ := idx_facts t
  unfold iblk0
  rw [View.read_apply]
  show V c main_v0 _ = V c main_v0 _
  congr 1
  funext a
  apply Fin.ext
  match a with
  | ⟨0, _⟩ => show win0_1.index t 0 * 128 + 1 * (x 0).val = (x 0).val; rw [e2]; omega
  | ⟨1, _⟩ => show win0_1.index t 1 * 128 + 1 * (x 1).val = (x 1).val; rw [e3]; omega

/-- The bias's window's block at every point is the whole array. -/
theorem iblk0_2_apply (c : Dev nD) (t : Fin cfg0.N) (x : S1x128.Idx) :
    (iblk0 (F := Ideal) V c 2 t : Vec Ideal S1x128 .f32) x = (V c main_v1 : S1x128.Idx → EReal) x := by
  obtain ⟨-, -, -, -, e4, e5, -⟩ := idx_facts t
  unfold iblk0
  rw [View.read_apply]
  show V c main_v1 _ = V c main_v1 _
  congr 1
  funext a
  apply Fin.ext
  match a with
  | ⟨0, _⟩ => show win0_2.index t 0 * 1 + 1 * (x 0).val = (x 0).val; rw [e4]; omega
  | ⟨1, _⟩ => show win0_2.index t 1 * 128 + 1 * (x 1).val = (x 1).val; rw [e5]; omega

/-! ## What each point writes back -/

/-- Point t writes back block t of the message array. -/
theorem flushed_eq (c : Dev nD) (t : Fin cfg0.N) :
    (dat0 (F := Ideal) V c).flushed 3 t = ((cfg0.win 3).blk t).view.read (Elt Ideal)
      (Cert.Spec.linRelu (V c main_arg0) (V c main_v0) (fun j => (V c main_v1 : S1x128.Idx → EReal) (ix2 0 j))) := by
  show (cfg0.win 3).cut (grid0.coords t) ((dat0 (F := Ideal) V c).after 3 t) = _
  rw [after0_3]
  unfold out0_3
  rw [View.canon_unit_zero hz]
  simp only [View.ld_unit_zero (S := S5000x128) hz, View.ld_unit_zero (S := S128x128) hz, View.ld_unit_zero (S := S1x128) hz]
  obtain ⟨-, -, -, -, -, -, e6, e7⟩ := idx_facts t
  funext y
  obtain ⟨p, q, rfl⟩ : ∃ (p : Fin 5000) (q : Fin 128), y = ix2 p q := ⟨y 0, y 1, eq_ix2 y⟩
  show k0_pay1 (F := Ideal) (iblk0 V c 0 t) (iblk0 V c 1 t) (iblk0 V c 2 t) (ix2 p q) = _
  refine (pay_apply _ _ _ p q).trans ?_
  have ht : t.val < 20 := lt_of_lt_of_eq t.isLt N_0
  have hr : 5000 * t.val + p.val < 100000 := by have := p.isLt; omega
  show _ = Cert.Spec.linReluAt (V c main_arg0) (V c main_v0) (fun j => (V c main_v1 : S1x128.Idx → EReal) (ix2 0 j))
      ⟨win0_3.index t (0 : Fin 2) * 5000 + 1 * p.val, _⟩ ⟨win0_3.index t (1 : Fin 2) * 128 + 1 * q.val, _⟩
  have hp : (⟨win0_3.index t (0 : Fin 2) * 5000 + 1 * p.val, by rw [e6]; omega⟩ : Fin 100000) = ⟨5000 * t.val + p.val, hr⟩ :=
    Fin.ext (by show win0_3.index t (0 : Fin 2) * 5000 + 1 * p.val = 5000 * t.val + p.val; rw [e6]; omega)
  have hq : (⟨win0_3.index t (1 : Fin 2) * 128 + 1 * q.val, by rw [e7]; have := q.isLt; omega⟩ : Fin 128) = q :=
    Fin.ext (by show win0_3.index t (1 : Fin 2) * 128 + 1 * q.val = q.val; rw [e7]; omega)
  rw [hp, hq]
  unfold Cert.Spec.linReluAt
  refine congrArg₂ max (congrArg₂ (· + ·) (Finset.sum_congr rfl fun k _ => congrArg₂ (· * ·) ?_ ?_) ?_) rfl
  · exact iblk0_0_apply V c t (ix2 p k) (ix2 ⟨5000 * t.val + p.val, hr⟩ k) rfl rfl
  · exact iblk0_1_apply V c t (ix2 k q)
  · exact iblk0_2_apply V c t (ix2 0 q)

/-! ## The blocks cover the array -/

/-- An index of the array is in point t's block iff each coordinate is in the block's range on its axis. -/
theorem mem_blk (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v2).slice (win0_3.rect t)).set ↔ _
  rw [View.set_slice_whole, Rect.mem_set_unit]
  exact Iff.rfl

/-- Row r of the array lies in the block of point r / 5000. -/
theorem cover (i : S100000x128.Idx) : ∃ t : Fin cfg0.N, (cfg0.win 3).flush t = true ∧ i ∈ ((cfg0.win 3).blk t).view.set := by
  have hi0 : (i 0).val < 100000 := idx2_lt0 i
  have hi1 : (i 1).val < 128 := idx2_lt1 i
  have hN : cfg0.N = 20 := N_0
  have hlt : (i 0).val / 5000 < cfg0.N := by rw [hN]; omega
  obtain ⟨-, -, -, -, -, -, e6, e7⟩ := idx_facts ⟨(i 0).val / 5000, hlt⟩
  refine ⟨⟨(i 0).val / 5000, hlt⟩, flush0_3 _, ?_⟩
  rw [mem_blk]
  intro a
  match a with
  | ⟨0, _⟩ =>
    show win0_3.index ⟨(i 0).val / 5000, hlt⟩ (0 : Fin 2) * 5000 ≤ (i 0).val ∧ (i 0).val < win0_3.index ⟨(i 0).val / 5000, hlt⟩ (0 : Fin 2) * 5000 + 5000
    rw [e6]
    show (i 0).val / 5000 * 5000 ≤ (i 0).val ∧ (i 0).val < (i 0).val / 5000 * 5000 + 5000
    omega
  | ⟨1, _⟩ =>
    show win0_3.index ⟨(i 0).val / 5000, hlt⟩ (1 : Fin 2) * 128 ≤ (i 1).val ∧ (i 1).val < win0_3.index ⟨(i 0).val / 5000, hlt⟩ (1 : Fin 2) * 128 + 128
    rw [e7]
    omega

/-- After region 0 its result array is the message array of the three arrays its input windows read. -/
theorem final0 (c : Dev nD) :
    (dat0 (F := Ideal) V c).arrAt 3 cfg0.N
      = Cert.Spec.linRelu (V c main_arg0) (V c main_v0) (fun j => (V c main_v1 : S1x128.Idx → EReal) (ix2 0 j)) :=
  (dat0 (F := Ideal) V c).arrAt_eq_of_cover 3 _ (fun t _ => flushed_eq V c t) cover

end Cert.KernelIdeal.Region0

end
-- ==== Proof.Region1.lean ====
/-
  The second kernel region (degree normalisation, residual and RMS normalisation), read as a value at the ideal
  instance: whatever the TensorCore's buffers hold when the region is entered (`V`), its result array ends holding
  the normalised residual `h r j * rsqrt ((∑ k, h r k * h r k) / 128 + ε) * γ 0 j + β 0 j` with
  `h r j = x r j + agg r j * inv r 0`, of the arrays its five input windows read.
-/
import proofs.«153998_j59330678227073_1_alg».proof.Proof.Gen.KernelIdeal.Frame
import proofs.«153998_j59330678227073_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open scoped BigOperators
open Idealize.ShloMosaic Idealize.ShloMosaic.TcCoe Idealize.SL.Sem
open Idealize.ShloMosaic.Pipeline (Dat)
open Idealize.ShloMosaic.ValueIdx

namespace Cert.KernelIdeal.Region1

open Cert.KernelIdeal Cert.KernelIdeal.Gen

variable (V : (c : Dev nD) → (b : Ref sig .tc) → Buf (Elt Ideal) ((c : Thread nD τ).loc b))

/-! ## The body's arithmetic at an index -/

/-- A vector cast to a one-column matrix reads, at `(i, u)`, the operand at `i`, whatever the unit coordinate `u`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A one-column matrix broadcast over `b` columns reads, at `(p, c)`, the operand's row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index the lane reduction inserts lane `k` into row `p` at is `(p, k)`. -/
theorem lift_eq (h : Shape.Reduces S5000x128 [1] S5000) (p : Fin 5000) (k : Fin 128) :
    h.lift (ix1 p) k = ix2 p k := by
  funext a
  apply Fin.ext
  match a with
  | ⟨0, _⟩ => rfl
  | ⟨1, _⟩ => rfl

/-- A reciprocal square root at an index is the element's. -/
theorem rsqrt_apply {s : Shape} {φ : FTy} (v : FVec Ideal s φ) (i : s.Idx) : rsqrt v i = Ideal.rsqrt (v i) := rfl

/-- The lane sum of a block at row `p`: the plain sum over the 128 lanes (the zero accumulator is the neutral element). -/
theorem lane_sum (v : FVec Ideal S5000x128 .f32) (h : Shape.Reduces S5000x128 [1] S5000) (hφ : FKind.Formats .f32)
    (hacc : (0x00000000#32 : BitVec 32) = FKind.add.neutral .f32 hφ) (p : Fin 5000) :
    multiReduction (F := Ideal) .add [1] S5000 v 0x00000000#32 h hφ hacc (ix1 p) = ∑ k : Fin 128, v (ix2 p k) := by
  refine (Ideal.multiReduction_add_single v _ h hφ hacc (ix1 p)).trans ?_
  exact Finset.sum_congr rfl fun k _ => congrArg v (lift_eq h p k)

/-- THE PAYLOAD AT `(p, q)`, over any five blocks: with `h p k = x0 (p, k) + x1 (p, k) * x2 (p, 0)`, it is
    `h p q * rsqrt ((∑ k, h p k * h p k) / 128 + ε) * x3 (0, q) + x4 (0, q)`, the two literals kept as their words. -/
theorem pay1_apply (x0 x1 : Vec Ideal S5000x128 .f32) (x2 : Vec Ideal S5000x1 .f32) (x3 x4 : Vec Ideal S1x128 .f32)
    (p : Fin 5000) (q : Fin 128) :
    k1_pay1 (F := Ideal) x0 x1 x2 x3 x4 (ix2 p q)
      = (x0 (ix2 p q) + x1 (ix2 p q) * x2 (ix2 p 0))
          * Ideal.rsqrt (Ideal.div (∑ k : Fin 128, (x0 (ix2 p k) + x1 (ix2 p k) * x2 (ix2 p 0)) * (x0 (ix2 p k) + x1 (ix2 p k) * x2 (ix2 p 0))) (Ideal.ofBits .f32 0x43000000#32) + Ideal.ofBits .f32 0x3727C5AC#32)
          * x3 (ix2 0 q) + x4 (ix2 0 q) := by
  unfold k1_pay1
  simp only [shapeCast_self, addf_apply, mulf_apply]
  rw [broadcastTo_a1_ab_apply, broadcastTo_a1_ab_apply, broadcastTo_1b_ab_apply, broadcastTo_1b_ab_apply]
  simp only [rsqrt_apply, addf_apply, divf_apply, broadcast_apply]
  rw [shapeCast_a_a1_apply]
  erw [lane_sum]
  simp only [mulf_apply, addf_apply, broadcastTo_a1_ab_apply]
  rfl

/-! ## The index maps, decided once over the grid -/

theorem hz : (![0, 0] : Fin 2 → Nat) = fun _ => 0 := funext fun a => by fin_cases a <;> rfl

/-- The three row-blocked inputs and the result sit at block `(t, 0)`; the scale and the shift do not move. -/
theorem idx_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = t.val ∧ win1_5.index t (1 : Fin 2) = 0) :=
  (by decide +kernel : ∀ t : Fin grid1.N, _)

/-- The grid has 20 points. -/
theorem t_lt (t : Fin cfg1.N) : t.val < 20 := lt_of_lt_of_eq t.isLt N_1

/-- Row `p` of block `t` is row `5000 t + p` of the array. -/
def row (t : Fin cfg1.N) (p : Fin 5000) : Fin 100000 :=
  ⟨t.val * 5000 + p.val, by have := t_lt t; have := p.isLt; omega⟩

/-! ## The input blocks, read off the arrays -/

/-- Block `t` of `x` at `(p, q)` is `x` at `(5000 t + p, q)`. -/
theorem iblk1_0_ix2 (c : Dev nD) (t : Fin cfg1.N) (p : Fin 5000) (q : Fin 128) :
    (iblk1 V c 0 t : Vec Ideal S5000x128 .f32) (ix2 p q) = (V c main_arg0 : S100000x128.Idx → EReal) (ix2 (row t p) q) := by
  obtain ⟨⟨e0, e1⟩, -⟩ := idx_facts t
  unfold iblk1
  rw [View.read_apply]
  show V c main_arg0 _ = V c main_arg0 _
  congr 1
  funext a
  apply Fin.ext
  match a with
  | ⟨0, _⟩ => show win1_0.index t (0 : Fin 2) * 5000 + 1 * p.val = t.val * 5000 + p.val; rw [e0]; omega
  | ⟨1, _⟩ => show win1_0.index t (1 : Fin 2) * 128 + 1 * q.val = q.val; rw [e1]; omega

/-- Block `t` of the aggregate at `(p, q)` is the aggregate at `(5000 t + p, q)`. -/
theorem iblk1_1_ix2 (c : Dev nD) (t : Fin cfg1.N) (p : Fin 5000) (q : Fin 128) :
    (iblk1 V c 1 t : Vec Ideal S5000x128 .f32) (ix2 p q) = (V c main_v22 : S100000x128.Idx → EReal) (ix2 (row t p) q) := by
  obtain ⟨-, ⟨e0, e1⟩, -⟩ := idx_facts t
  unfold iblk1
  rw [View.read_apply]
  show V c main_v22 _ = V c main_v22 _
  congr 1
  funext a
  apply Fin.ext
  match a with
  | ⟨0, _⟩ => show win1_1.index t (0 : Fin 2) * 5000 + 1 * p.val = t.val * 5000 + p.val; rw [e0]; omega
  | ⟨1, _⟩ => show win1_1.index t (1 : Fin 2) * 128 + 1 * q.val = q.val; rw [e1]; omega

/-- Block `t` of the per-row factor at `(p, 0)` is the factor at `(5000 t + p, 0)`. -/
theorem iblk1_2_ix2 (c : Dev nD) (t : Fin cfg1.N) (p : Fin 5000) (u : Fin 1) :
    (iblk1 V c 2 t : Vec Ideal S5000x1 .f32) (ix2 p u) = (V c main_v12 : S100000x1.Idx → EReal) (ix2 (row t p) u) := by
  obtain ⟨-, -, ⟨e0, e1⟩, -⟩ := idx_facts t
  unfold iblk1
  rw [View.read_apply]
  show V c main_v12 _ = V c main_v12 _
  congr 1
  funext a
  apply Fin.ext
  match a with
  | ⟨0, _⟩ => show win1_2.index t (0 : Fin 2) * 5000 + 1 * p.val = t.val * 5000 + p.val; rw [e0]; omega
  | ⟨1, _⟩ => show win1_2.index t (1 : Fin 2) * 1 + 1 * u.val = u.val; rw [e1]; omega

/-- The scale's one block is the scale. -/
theorem iblk1_3_ix2 (c : Dev nD) (t : Fin cfg1.N) (u : Fin 1) (q : Fin 128) :
    (iblk1 V c 3 t : Vec Ideal S1x128 .f32) (ix2 u q) = (V c main_v23 : S1x128.Idx → EReal) (ix2 u q) := by
  obtain ⟨-, -, -, ⟨e0, e1⟩, -⟩ := idx_facts t
  unfold iblk1
  rw [View.read_apply]
  show V c main_v23 _ = V c main_v23 _
  congr 1
  funext a
  apply Fin.ext
  match a with
  | ⟨0, _⟩ => show win1_3.index t (0 : Fin 2) * 1 + 1 * u.val = u.val; rw [e0]; omega
  | ⟨1, _⟩ => show win1_3.index t (1 : Fin 2) * 128 + 1 * q.val = q.val; rw [e1]; omega

/-- The shift's one block is the shift. -/
theorem iblk1_4_ix2 (c : Dev nD) (t : Fin cfg1.N) (u : Fin 1) (q : Fin 128) :
    (iblk1 V c 4 t : Vec Ideal S1x128 .f32) (ix2 u q) = (V c main_v24 : S1x128.Idx → EReal) (ix2 u q) := by
  obtain ⟨-, -, -, -, ⟨e0, e1⟩, -⟩ := idx_facts t
  unfold iblk1
  rw [View.read_apply]
  show V c main_v24 _ = V c main_v24 _
  congr 1
  funext a
  apply Fin.ext
  match a with
  | ⟨0, _⟩ => show win1_4.index t (0 : Fin 2) * 1 + 1 * u.val = u.val; rw [e0]; omega
  | ⟨1, _⟩ => show win1_4.index t (1 : Fin 2) * 128 + 1 * q.val = q.val; rw [e1]; omega

/-! ## The write-backs and the result array -/

/-- What the result array ends holding: the normalised residual of the arrays the input windows read. -/
abbrev G (c : Dev nD) : S100000x128.Idx → EReal :=
  Cert.Spec.out
    (Cert.Spec.resMul (V c main_arg0) (V c main_v22) (fun r => (V c main_v12 : S100000x1.Idx → EReal) (ix2 r 0)))
    (fun j => (V c main_v23 : S1x128.Idx → EReal) (ix2 0 j))
    (fun j => (V c main_v24 : S1x128.Idx → EReal) (ix2 0 j))

/-- Element `(p, q)` of the result's block `t` sits at `(5000 t + p, q)` in the array. -/
theorem emb5 (t : Fin cfg1.N) (p : Fin 5000) (q : Fin 128) :
    (((cfg1.win 5).blk t).view.emb (ix2 p q) : S100000x128.Idx) = ix2 (row t p) q := by
  obtain ⟨-, -, -, -, -, e0, e1⟩ := idx_facts t
  funext a
  apply Fin.ext
  match a with
  | ⟨0, _⟩ => show win1_5.index t (0 : Fin 2) * 5000 + 1 * p.val = t.val * 5000 + p.val; rw [e0]; omega
  | ⟨1, _⟩ => show win1_5.index t (1 : Fin 2) * 128 + 1 * q.val = q.val; rw [e1]; omega

/-- What point `t` writes back is block `t` of the normalised residual. -/
theorem flushed_eq (c : Dev nD) (t : Fin cfg1.N) :
    (dat1 (F := Ideal) V c).flushed 5 t = ((cfg1.win 5).blk t).view.read (Elt Ideal) (G V c) := by
  show (cfg1.win 5).cut (grid1.coords t) ((dat1 V c).after 5 t) = _
  rw [after1_5]
  unfold out1_5
  rw [View.canon_unit_zero hz]
  simp only [View.ld_unit_zero (S := S5000x128) hz, View.ld_unit_zero (S := S5000x1) hz, View.ld_unit_zero (S := S1x128) hz]
  funext y
  obtain ⟨p, q, rfl⟩ : ∃ (p : Fin 5000) (q : Fin 128), y = ix2 p q := ⟨y 0, y 1, eq_ix2 y⟩
  rw [View.read_apply]
  show k1_pay1 (F := Ideal) (iblk1 V c 0 t) (iblk1 V c 1 t) (iblk1 V c 2 t) (iblk1 V c 3 t) (iblk1 V c 4 t) (ix2 p q)
    = G V c (((cfg1.win 5).blk t).view.emb (ix2 p q))
  rw [emb5, pay1_apply]
  simp only [iblk1_0_ix2, iblk1_1_ix2, iblk1_2_ix2, iblk1_3_ix2, iblk1_4_ix2]
  rfl

/-- An index of the array is in point `t`'s block iff each coordinate is in the block's range on its axis. -/
theorem mem_blk (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v25).slice (win1_5.rect t)).set ↔ _
  rw [View.set_slice_whole, Rect.mem_set_unit]
  exact Iff.rfl

/-- Every index of the array lies in the block of the point its row falls in. -/
theorem cover (i : S100000x128.Idx) :
    ∃ t : Fin cfg1.N, (cfg1.win 5).flush t = true ∧ i ∈ ((cfg1.win 5).blk t).view.set := by
  have hi0 : (i 0).val < 100000 := idx2_lt0 i
  have hi1 : (i 1).val < 128 := idx2_lt1 i
  obtain ⟨t, ht⟩ : ∃ t : Fin cfg1.N, t.val = (i 0).val / 5000 :=
    ⟨⟨(i 0).val / 5000, by rw [show cfg1.N = 20 from N_1]; omega⟩, rfl⟩
  obtain ⟨-, -, -, -, -, e0, e1⟩ := idx_facts t
  refine ⟨t, flush1_5 t, ?_⟩
  rw [mem_blk]
  intro a
  match a with
  | ⟨0, _⟩ =>
    show win1_5.index t (0 : Fin 2) * 5000 ≤ (i 0).val ∧ (i 0).val < win1_5.index t (0 : Fin 2) * 5000 + 5000
    rw [e0]; omega
  | ⟨1, _⟩ =>
    show win1_5.index t (1 : Fin 2) * 128 ≤ (i 1).val ∧ (i 1).val < win1_5.index t (1 : Fin 2) * 128 + 128
    rw [e1]; omega

/-- After region 1 its result array is the normalised residual of the five arrays its input windows read. -/
theorem final1 (c : Dev nD) :
    (dat1 (F := Ideal) V c).arrAt 5 cfg1.N
      = Cert.Spec.out
          (Cert.Spec.resMul (V c main_arg0) (V c main_v22) (fun r => (V c main_v12 : S100000x1.Idx → EReal) (ix2 r 0)))
          (fun j => (V c main_v23 : S1x128.Idx → EReal) (ix2 0 j))
          (fun j => (V c main_v24 : S1x128.Idx → EReal) (ix2 0 j)) := by
  exact (dat1 (F := Ideal) V c).arrAt_eq_of_cover 5 (G V c) (fun t _ => flushed_eq V c t) cover

end Cert.KernelIdeal.Region1

end
-- ==== Proof.KernelHost.lean ====
/-
  The host operations of the kernel's program around its two regions, read as values: what each array the second
  region's windows read holds when that region is entered, as a function of the launch memory and of the first
  region's result — the transposed weight and the reshaped bias before the first region; between the regions the
  degree count (ones summed into the edges' target nodes), its clamp away from zero, the reciprocal, and the
  aggregate (messages gathered at the edges' source nodes, summed into the target nodes).
-/
import proofs.«153998_j59330678227073_1_alg».proof.Proof.Gen.KernelIdeal.Frame
import Idealize.ShloMosaic.Lib.StableHlo.Run

set_option maxRecDepth 16384

noncomputable section

namespace Cert.KernelIdeal.Host

open Cert.KernelIdeal Cert.KernelIdeal.Gen
open Idealize.ShloMosaic Idealize.ShloMosaic.TcCoe Idealize.SL.Sem Idealize.ShloMosaic.StableHlo

variable {F : FTy → Type} [FloatOps F]

/-- The degree count: a one for every edge, summed into the edge's target node. -/
def degOf (rows : (⟨S1600000, .i32⟩ : BufTy).Contents (Elt F)) : (⟨S100000, .f32⟩ : BufTy).Contents (Elt F) :=
  Host.scatterAdd scatter_S100000_S1600000x1_S1600000_n_0_0_1
    (broadcastInDim S100000 ![] bcast_S_S100000 (constant S_ .f32 0x00000000#32))
    (broadcastInDim S1600000x1 ![0] bcast_S1600000_S1600000x1_0 rows)
    (broadcastInDim S1600000 ![] bcast_S_S1600000 (constant S_ .f32 0x3F800000#32))

/-- The degree with zero replaced by one. -/
def ddOf (rows : (⟨S1600000, .i32⟩ : BufTy).Contents (Elt F)) : (⟨S100000, .f32⟩ : BufTy).Contents (Elt F) :=
  select (cmpf (F := F) .oeq (degOf rows) (broadcastInDim S100000 ![] bcast_S_S100000 (constant S_ .f32 0x00000000#32)))
    (broadcastInDim S100000 ![] bcast_S_S100000 (constant S_ .f32 0x3F800000#32))
    (degOf rows)

/-- The aggregate: the messages `mm` gathered at the edges' source nodes (a negative index wrapped once) and summed
    into the edges' target nodes. -/
def aggOf (mm : (⟨S100000x128, .f32⟩ : BufTy).Contents (Elt F)) (rows cols : (⟨S1600000, .i32⟩ : BufTy).Contents (Elt F)) :
    (⟨S100000x128, .f32⟩ : BufTy).Contents (Elt F) :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 rows)
    (Host.gather gather_S100000x128_S1600000x1_S1600000x128_1_0_n_n_0_1_1128 mm
      (broadcastInDim S1600000x1 ![0] bcast_S1600000_S1600000x1_0
        (select (cmpi .slt cols (broadcastInDim S1600000 ![] bcast_S_S1600000 (constantI S_ 32 0#32)))
          (addi cols (broadcastInDim S1600000 ![] bcast_S_S1600000 (constantI S_ 32 100000#32))) cols)))

/-! ## Each stretch of host operations, from any contents `W` -/

section Stretches
variable (W : Valuation τ sig (Elt F))

theorem pre_v0 : after (hostOps0 (F := F)) W (Proc.devRef .tc main_v0)
    = transpose S128x128 [1, 0] (W (Proc.devRef .tc main_arg1)) transposes_S128x128_S128x128_1_0 := by
  after_results

theorem pre_v1 : after (hostOps0 (F := F)) W (Proc.devRef .tc main_v1)
    = shapeCast S1x128 (W (Proc.devRef .tc main_arg2)) shapeCasts_S128_S1x128 := by
  after_results; rfl

theorem pre_arg0 : after (hostOps0 (F := F)) W (Proc.devRef .tc main_arg0) = W (Proc.devRef .tc main_arg0) := by
  after_results

theorem mid1_v6 : after (hostOps1 (F := F)) W (Proc.devRef .tc main_v6) = degOf (W (Proc.devRef .tc main_arg5)) := by
  after_results; rfl

theorem mid1_v8 : after (hostOps1 (F := F)) W (Proc.devRef .tc main_v8)
    = cmpf (F := F) .oeq (degOf (W (Proc.devRef .tc main_arg5))) (broadcastInDim S100000 ![] bcast_S_S100000 (constant S_ .f32 0x00000000#32)) := by
  after_results; rfl

theorem mid1_cst2 : after (hostOps1 (F := F)) W (Proc.devRef .tc main_cst_2) = constant S_ .f32 0x3F800000#32 := by
  after_results

theorem mid2_v9 : after (hostOps1_1 (F := F)) W (Proc.devRef .tc main_v9)
    = select (W (Proc.devRef .tc main_v8)) (broadcastInDim S100000 ![] bcast_S_S100000 (W (Proc.devRef .tc main_cst_2))) (W (Proc.devRef .tc main_v6)) := by
  after_results; rfl

theorem mid3_v12 : after (hostOps1_2 (F := F)) W (Proc.devRef .tc main_v12)
    = shapeCast S100000x1 (Host.divf (broadcastInDim S100000 ![] bcast_S_S100000 (constant S_ .f32 0x3F800000#32)) (W (Proc.devRef .tc main_v9))) shapeCasts_S100000_S100000x1 := by
  after_results; rfl

theorem mid3_v22 : after (hostOps1_2 (F := F)) W (Proc.devRef .tc main_v22)
    = aggOf (W (Proc.devRef .tc main_v2)) (W (Proc.devRef .tc main_arg5)) (W (Proc.devRef .tc main_arg6)) := by
  after_results; rfl

theorem mid3_v23 : after (hostOps1_2 (F := F)) W (Proc.devRef .tc main_v23)
    = shapeCast S1x128 (W (Proc.devRef .tc main_arg3)) shapeCasts_S128_S1x128 := by
  after_results; rfl

theorem mid3_v24 : after (hostOps1_2 (F := F)) W (Proc.devRef .tc main_v24)
    = shapeCast S1x128 (W (Proc.devRef .tc main_arg4)) shapeCasts_S128_S1x128 := by
  after_results; rfl

/-! Buffers a stretch does not write keep their contents. -/

theorem mid1_keep_arg5 : after (hostOps1 (F := F)) W (Proc.devRef .tc main_arg5) = W (Proc.devRef .tc main_arg5) := by after_results
theorem mid1_keep_v2 : after (hostOps1 (F := F)) W (Proc.devRef .tc main_v2) = W (Proc.devRef .tc main_v2) := by after_results
theorem mid2_keep_arg5 : after (hostOps1_1 (F := F)) W (Proc.devRef .tc main_arg5) = W (Proc.devRef .tc main_arg5) := by after_results
theorem mid2_keep_v2 : after (hostOps1_1 (F := F)) W (Proc.devRef .tc main_v2) = W (Proc.devRef .tc main_v2) := by after_results
theorem mid3_keep_arg3 : after (hostOps1_2 (F := F)) W (Proc.devRef .tc main_arg3) = W (Proc.devRef .tc main_arg3) := by after_results
theorem mid3_keep_arg4 : after (hostOps1_2 (F := F)) W (Proc.devRef .tc main_arg4) = W (Proc.devRef .tc main_arg4) := by after_results
theorem mid3_keep_arg5 : after (hostOps1_2 (F := F)) W (Proc.devRef .tc main_arg5) = W (Proc.devRef .tc main_arg5) := by after_results
theorem mid3_keep_arg6 : after (hostOps1_2 (F := F)) W (Proc.devRef .tc main_arg6) = W (Proc.devRef .tc main_arg6) := by after_results

end Stretches

/-! ## The contents the two regions are entered with -/

section Entry
variable (m : (ℓ : Loc nD τ sig) → Buf (Elt F) ℓ) (ρ : Dev nD → PrngReg)

/-- Region 0 reads the node features as launched, … -/
theorem V1_arg0 (c : Dev nD) : V1 m ρ c main_arg0 = m ((c : Thread nD τ).loc main_arg0) := pre_arg0 (W0 m ρ c)
/-- … the transposed weight … -/
theorem V1_v0 (c : Dev nD) : V1 m ρ c main_v0
    = transpose S128x128 [1, 0] (m ((c : Thread nD τ).loc main_arg1)) transposes_S128x128_S128x128_1_0 := pre_v0 (W0 m ρ c)
/-- … and the bias as one row. -/
theorem V1_v1 (c : Dev nD) : V1 m ρ c main_v1
    = shapeCast S1x128 (m ((c : Thread nD τ).loc main_arg2)) shapeCasts_S128_S1x128 := pre_v1 (W0 m ρ c)

/-- The arguments the later host operations and region 1 read are as launched at region 1's entry … -/
theorem W5_arg0 (c : Dev nD) : W5 m ρ c (Proc.devRef .tc main_arg0) = m ((c : Thread nD τ).loc main_arg0) :=
  ((W6_arr m ρ c 0).trans (((dat1 (V5 m ρ) c).arrAt_in 0 rfl _).trans (A_eq1 (V5 m ρ) c 0))).symm.trans (W6_main_arg0 m ρ c)
theorem W5_arg3 (c : Dev nD) : W5 m ρ c (Proc.devRef .tc main_arg3) = m ((c : Thread nD τ).loc main_arg3) :=
  (W6_of_ne m ρ c main_arg3 (by decide)).symm.trans (W6_main_arg3 m ρ c)
theorem W5_arg4 (c : Dev nD) : W5 m ρ c (Proc.devRef .tc main_arg4) = m ((c : Thread nD τ).loc main_arg4) :=
  (W6_of_ne m ρ c main_arg4 (by decide)).symm.trans (W6_main_arg4 m ρ c)
theorem W5_arg5 (c : Dev nD) : W5 m ρ c (Proc.devRef .tc main_arg5) = m ((c : Thread nD τ).loc main_arg5) :=
  (W6_of_ne m ρ c main_arg5 (by decide)).symm.trans (W6_main_arg5 m ρ c)
theorem W5_arg6 (c : Dev nD) : W5 m ρ c (Proc.devRef .tc main_arg6) = m ((c : Thread nD τ).loc main_arg6) :=
  (W6_of_ne m ρ c main_arg6 (by decide)).symm.trans (W6_main_arg6 m ρ c)
/-- … and already before the last stretch, which writes none of them. -/
theorem W4_arg3 (c : Dev nD) : W4 m ρ c (Proc.devRef .tc main_arg3) = m ((c : Thread nD τ).loc main_arg3) :=
  (mid3_keep_arg3 (W4 m ρ c)).symm.trans (W5_arg3 m ρ c)
theorem W4_arg4 (c : Dev nD) : W4 m ρ c (Proc.devRef .tc main_arg4) = m ((c : Thread nD τ).loc main_arg4) :=
  (mid3_keep_arg4 (W4 m ρ c)).symm.trans (W5_arg4 m ρ c)
theorem W4_arg5 (c : Dev nD) : W4 m ρ c (Proc.devRef .tc main_arg5) = m ((c : Thread nD τ).loc main_arg5) :=
  (mid3_keep_arg5 (W4 m ρ c)).symm.trans (W5_arg5 m ρ c)
theorem W4_arg6 (c : Dev nD) : W4 m ρ c (Proc.devRef .tc main_arg6) = m ((c : Thread nD τ).loc main_arg6) :=
  (mid3_keep_arg6 (W4 m ρ c)).symm.trans (W5_arg6 m ρ c)
theorem W2_arg5 (c : Dev nD) : W2 m ρ c (Proc.devRef .tc main_arg5) = m ((c : Thread nD τ).loc main_arg5) :=
  (mid1_keep_arg5 (W2 m ρ c)).symm.trans ((mid2_keep_arg5 (W3 m ρ c)).symm.trans (W4_arg5 m ρ c))
/-- The first region's result array reaches the gather unchanged. -/
theorem W4_v2 (c : Dev nD) : W4 m ρ c (Proc.devRef .tc main_v2) = (dat0 (V1 m ρ) c).arrAt 3 cfg0.N :=
  (mid2_keep_v2 (W3 m ρ c)).trans ((mid1_keep_v2 (W2 m ρ c)).trans (W2_arr m ρ c 3))

/-- Region 1 reads the node features as launched, … -/
theorem V5_arg0 (c : Dev nD) : V5 m ρ c main_arg0 = m ((c : Thread nD τ).loc main_arg0) := W5_arg0 m ρ c
/-- … the aggregate of the first region's result along the edges, … -/
theorem V5_v22 (c : Dev nD) : V5 m ρ c main_v22
    = aggOf ((dat0 (V1 m ρ) c).arrAt 3 cfg0.N) (m ((c : Thread nD τ).loc main_arg5)) (m ((c : Thread nD τ).loc main_arg6)) := by
  show after (hostOps1_2 (F := F)) (W4 m ρ c) (Proc.devRef .tc main_v22) = _
  rw [mid3_v22, W4_v2, W4_arg5, W4_arg6]
/-- … the reciprocal of the clamped degree as a column, … -/
theorem V5_v12 (c : Dev nD) : V5 m ρ c main_v12
    = shapeCast S100000x1 (Host.divf (broadcastInDim S100000 ![] bcast_S_S100000 (constant S_ .f32 0x3F800000#32))
        (ddOf (m ((c : Thread nD τ).loc main_arg5)))) shapeCasts_S100000_S100000x1 := by
  show after (hostOps1_2 (F := F)) (W4 m ρ c) (Proc.devRef .tc main_v12) = _
  rw [mid3_v12]
  have e9 : W4 m ρ c (Proc.devRef .tc main_v9) = ddOf (m ((c : Thread nD τ).loc main_arg5)) := by
    show after (hostOps1_1 (F := F)) (W3 m ρ c) (Proc.devRef .tc main_v9) = _
    rw [mid2_v9]
    show select (after (hostOps1 (F := F)) (W2 m ρ c) (Proc.devRef .tc main_v8))
        (broadcastInDim S100000 ![] bcast_S_S100000 (after (hostOps1 (F := F)) (W2 m ρ c) (Proc.devRef .tc main_cst_2)))
        (after (hostOps1 (F := F)) (W2 m ρ c) (Proc.devRef .tc main_v6)) = _
    rw [mid1_v8, mid1_cst2, mid1_v6, W2_arg5]
    rfl
  rw [e9]
/-- … and the scale and shift as one row each. -/
theorem V5_v23 (c : Dev nD) : V5 m ρ c main_v23
    = shapeCast S1x128 (m ((c : Thread nD τ).loc main_arg3)) shapeCasts_S128_S1x128 := by
  show after (hostOps1_2 (F := F)) (W4 m ρ c) (Proc.devRef .tc main_v23) = _
  rw [mid3_v23, W4_arg3]
theorem V5_v24 (c : Dev nD) : V5 m ρ c main_v24
    = shapeCast S1x128 (m ((c : Thread nD τ).loc main_arg4)) shapeCasts_S128_S1x128 := by
  show after (hostOps1_2 (F := F)) (W4 m ρ c) (Proc.devRef .tc main_v24) = _
  rw [mid3_v24, W4_arg4]

end Entry

end Cert.KernelIdeal.Host

end
-- ==== Proof.RefSide.lean ====
/-
  The reference program read against the specification, at the ideal instance: its message array is
  `relu (x · Wt + b)`; its pre-norm array is the residual with the aggregate DIVIDED by the clamped degree; its result
  is the row-wise RMS normalisation of that array.
-/
import proofs.«153998_j59330678227073_1_alg».proof.Proof.RefRead
import proofs.«153998_j59330678227073_1_alg».proof.Proof.Spec
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.ReadP
open Idealize.ShloMosaic Idealize.ShloMosaic.ValueIdx

variable (x0 : (⟨S100000x128, .f32⟩ : BufTy).Contents (Elt Ideal)) (x1 : (⟨S128x128, .f32⟩ : BufTy).Contents (Elt Ideal))
  (x2 x3 x4 : (⟨S128, .f32⟩ : BufTy).Contents (Elt Ideal)) (x5 x6 : (⟨S1600000, .i32⟩ : BufTy).Contents (Elt Ideal))

/-- The reference's message array is `relu (x · Wt + b)`, entry by entry. -/
theorem msg_eq : val_main_v5 (F := Ideal) x0 x1 x2
    = Cert.Spec.linRelu x0 (val_main_v0 (F := Ideal) x1) (fun j => (x2 : S128.Idx → EReal) (ix1 j)) := by
  funext i
  obtain ⟨r, j, rfl⟩ : ∃ (r : Fin 100000) (j : Fin 128), i = ix2 r j := ⟨i 0, i 1, eq_ix2 i⟩
  rw [Cert.Spec.linRelu_ix2, val_main_v5_apply, val_main_v4_apply, val_main_v1_apply, val_main_v3_apply, val_main_v2_apply,
    val_main_call0_v0_apply, val_main_call0_cst_apply]
  unfold Cert.Spec.linReluAt
  have e1 : ∀ k : Fin 128, lidx_main_v1 (ix2 r j) k = ix2 r k := fun k => funext fun a => by
    match a with | ⟨0, _⟩ => rfl | ⟨1, _⟩ => rfl
  have e2 : ∀ k : Fin 128, ridx_main_v1 (ix2 r j) k = ix2 k j := fun k => funext fun a => by
    match a with | ⟨0, _⟩ => rfl | ⟨1, _⟩ => rfl
  have e3 : idx_main_v2 (idx_main_v3 (ix2 r j)) = ix1 j := funext fun a => by
    match a with | ⟨0, _⟩ => rfl
  simp only [e1, e2, e3]
  rfl

/-- The reference's pre-norm array is the residual in its quotient form. -/
theorem res_eq (r : Fin 100000) (j : Fin 128) : val_main_v26 (F := Ideal) x0 x1 x2 x5 x6 (ix2 r j)
    = Cert.Spec.resDiv x0 (val_main_v19 (F := Ideal) x0 x1 x2 x5 x6) (fun r => (val_main_v22 (F := Ideal) x5 : S100000.Idx → EReal) (ix1 r)) r j := by
  rw [val_main_v26_apply, val_main_v25_apply, val_main_v24_apply, val_main_v23_apply]
  unfold Cert.Spec.resDiv
  have e : idx_main_v23 (idx_main_v24 (ix2 r j)) = ix1 r := funext fun a => by
    match a with | ⟨0, _⟩ => rfl
  rw [e]
  rfl

/-- The reference's result is the row-wise normalisation of its pre-norm array. -/
theorem out_eq : val_main_v42 (F := Ideal) x0 x1 x2 x3 x4 x5 x6
    = Cert.Spec.out (fun r j => val_main_v26 (F := Ideal) x0 x1 x2 x5 x6 (ix2 r j))
        (fun j => (x3 : S128.Idx → EReal) (ix1 j)) (fun j => (x4 : S128.Idx → EReal) (ix1 j)) := by
  funext i
  obtain ⟨r, j, rfl⟩ : ∃ (r : Fin 100000) (j : Fin 128), i = ix2 r j := ⟨i 0, i 1, eq_ix2 i⟩
  rw [Cert.Spec.out_ix2, val_main_v42_apply, val_main_v39_apply, val_main_v36_apply, val_main_v35_apply, val_main_v34_apply,
    val_main_v33_apply, val_main_v31_apply, val_main_v29_apply, val_main_v28_apply, val_main_v38_apply, val_main_v37_apply,
    val_main_v41_apply, val_main_v40_apply, val_main_v30_apply, val_main_v32_apply, val_main_cst_6_apply, val_main_cst_7_apply,
    val_main_cst_5_apply]
  unfold Cert.Spec.normAt
  have e1 : ∀ k : Fin 128, idx_main_v28 (idx_main_v29 (idx_main_v35 (ix2 r j))) k = ix2 r k := fun k => funext fun a => by
    match a with | ⟨0, _⟩ => rfl | ⟨1, _⟩ => rfl
  have e3 : idx_main_v37 (idx_main_v38 (ix2 r j)) = ix1 j := funext fun a => by
    match a with | ⟨0, _⟩ => rfl
  have e4 : idx_main_v40 (idx_main_v41 (ix2 r j)) = ix1 j := funext fun a => by
    match a with | ⟨0, _⟩ => rfl
  simp only [e1, e3, e4, val_main_v27_apply, Ideal.ofBits_def, Ideal.ofBits_zero_f32, zero_add]
  rfl

end Cert.ReferenceIdeal.RefValue

end
-- ==== Proof.Bridge.lean ====
/-
  The two programs meet. Both end at ONE function of the arguments,
    `target = normalise (x + aggregate (relu (x · Wt + b)) / dd)`:
  the reference by its own operations; the kernel because its per-row factor is `1 / dd r` with `dd r ≠ 0` (the degree
  clamped away from zero), and `a * (1 / d) = a / d` on the extended reals for `d ≠ 0`. The aggregate and the degree
  count are the same host operations in both programs and stay opaque.
-/
import proofs.«153998_j59330678227073_1_alg».proof.Proof.KernelHost
import proofs.«153998_j59330678227073_1_alg».proof.Proof.RefSide
import proofs.«153998_j59330678227073_1_alg».proof.Proof.Spec
import Idealize.ShloMosaic.Lib.Pipeline.Value
import Idealize.ShloMosaic.Lib.ValueIdx
import Idealize.ShloMosaic.Lib.IdealHost

set_option maxRecDepth 16384

noncomputable section

open scoped BigOperators

namespace Cert.Bridge

open Idealize.ShloMosaic Idealize.ShloMosaic.TcCoe Idealize.SL.Sem Idealize.ShloMosaic.ValueIdx

/-! ## Two reshapes read at an index -/

/-- A vector reshaped to one row, read in that row. -/
theorem row_reshape {α : Type} {n : Nat} (v : (⟨1, ![n]⟩ : Shape).Idx → α) (h : (⟨1, ![n]⟩ : Shape).ShapeCasts ⟨2, ![1, n]⟩)
    (j : Fin n) : shapeCast ⟨2, ![1, n]⟩ v h (ix2 0 j) = v (ix1 j) :=
  shapeCast_apply v h (ix2 0 j) (ix1 j) (by
    rw [Shape.rowMajor_val_one, Shape.rowMajor_val_two]
    show j.val = 0 * n + j.val
    omega)

/-- A vector reshaped to one column, read in that column. -/
theorem col_reshape {α : Type} {n : Nat} (v : (⟨1, ![n]⟩ : Shape).Idx → α) (h : (⟨1, ![n]⟩ : Shape).ShapeCasts ⟨2, ![n, 1]⟩)
    (r : Fin n) : shapeCast ⟨2, ![n, 1]⟩ v h (ix2 r 0) = v (ix1 r) :=
  shapeCast_apply v h (ix2 r 0) (ix1 r) (by
    rw [Shape.rowMajor_val_one, Shape.rowMajor_val_two]
    show r.val = r.val * 1 + 0
    omega)

/-! ## The clamped degree is never zero -/

/-- A scalar broadcast to any shape reads the scalar everywhere. -/
theorem splat_apply {α : Type} {t : Shape} (h : (⟨0, ![]⟩ : Shape).BroadcastsInDim t (![] : Fin 0 → Fin t.rank))
    (x : (⟨0, ![]⟩ : Shape).Idx → α) (i : t.Idx) : broadcastInDim t ![] h x i = x ix0 :=
  broadcastInDim_apply _ h x i ix0 (fun a => a.elim0)

/-- The host's quotient at an index is the quotient of the elements. -/
theorem host_div_apply {s : Shape} {φ : FTy} (a b : FVec Ideal s φ) (i : s.Idx) : Host.divf a b i = Ideal.div (a i) (b i) := rfl

/-- "Where `d` is zero take one, else `d`" is never zero. -/
theorem clamp_ne_zero {s : Shape} (d one zero : FVec Ideal s .f32) (i : s.Idx) (h1 : one i = (1 : EReal)) (h0 : zero i = (0 : EReal)) :
    (select (cmpf (F := Ideal) .oeq d zero) one d : s.Idx → EReal) i ≠ 0 := by
  rw [select_apply, cmpf_apply, h1, h0]
  show Scalar.select (Ideal.cmp .oeq (d i) 0) (1 : EReal) (d i) ≠ 0
  by_cases h : d i = 0
  · have hc : Ideal.cmp .oeq (d i) 0 = 1#1 := by unfold Ideal.cmp; simp [h]
    rw [hc, select_one]
    exact one_ne_zero
  · have hc : Ideal.cmp .oeq (d i) 0 = 0#1 := by unfold Ideal.cmp; simp [h]
    rw [hc, select_zero]
    exact h

open Cert.KernelIdeal in
theorem dd_ne_zero (rows : (⟨S1600000, .i32⟩ : BufTy).Contents (Elt Ideal)) (i : S100000.Idx) :
    (Cert.KernelIdeal.Host.ddOf (F := Ideal) rows : S100000.Idx → EReal) i ≠ 0 := by
  unfold Cert.KernelIdeal.Host.ddOf
  generalize Cert.KernelIdeal.Host.degOf (F := Ideal) rows = d
  exact clamp_ne_zero d _ _ i ((splat_apply _ _ i).trans Ideal.ofBits_one_f32) ((splat_apply _ _ i).trans Ideal.ofBits_zero_f32)

/-! ## The one function both programs end at -/

open Cert.KernelIdeal in
/-- The layer's result as a function of the seven arguments. -/
def target (x : (⟨S100000x128, .f32⟩ : BufTy).Contents (Elt Ideal)) (w : (⟨S128x128, .f32⟩ : BufTy).Contents (Elt Ideal))
    (b g bt : (⟨S128, .f32⟩ : BufTy).Contents (Elt Ideal)) (rows cols : (⟨S1600000, .i32⟩ : BufTy).Contents (Elt Ideal)) :
    S100000x128.Idx → EReal :=
  Cert.Spec.out
    (Cert.Spec.resDiv x
      (Cert.KernelIdeal.Host.aggOf (F := Ideal)
        (Cert.Spec.linRelu x (transpose S128x128 [1, 0] w Cert.KernelIdeal.Facts₀.transposes_S128x128_S128x128_1_0) (fun j => (b : S128.Idx → EReal) (ix1 j)))
        rows cols)
      (fun r => (Cert.KernelIdeal.Host.ddOf (F := Ideal) rows : S100000.Idx → EReal) (ix1 r)))
    (fun j => (g : S128.Idx → EReal) (ix1 j)) (fun j => (bt : S128.Idx → EReal) (ix1 j))

/-! ## The kernel's side -/

section Kernel
open Cert.KernelIdeal Cert.KernelIdeal.Gen Cert.KernelIdeal.Host
open Idealize.ShloMosaic.Pipeline (Dat)

variable (m : (ℓ : Loc nD τ sig) → Buf (Elt Ideal) ℓ) (ρ : Dev nD → PrngReg)

/-- Given each region's result array as its function of the arrays its windows read (whatever the region is entered
    with), the kernel's result array is `target` of the launch memory's arguments. -/
theorem kernel_value (c : Dev nD)
    (h0 : ∀ V : (c : Dev nD) → (b : Ref sig .tc) → Buf (Elt Ideal) ((c : Thread nD τ).loc b),
      (dat0 (F := Ideal) V c).arrAt 3 cfg0.N
        = Cert.Spec.linRelu (V c main_arg0) (V c main_v0) (fun j => (V c main_v1 : S1x128.Idx → EReal) (ix2 0 j)))
    (h1 : ∀ V : (c : Dev nD) → (b : Ref sig .tc) → Buf (Elt Ideal) ((c : Thread nD τ).loc b),
      (dat1 (F := Ideal) V c).arrAt 5 cfg1.N
        = Cert.Spec.out
            (Cert.Spec.resMul (V c main_arg0) (V c main_v22) (fun r => (V c main_v12 : S100000x1.Idx → EReal) (ix2 r 0)))
            (fun j => (V c main_v23 : S1x128.Idx → EReal) (ix2 0 j))
            (fun j => (V c main_v24 : S1x128.Idx → EReal) (ix2 0 j))) :
    (dat1 (F := Ideal) (V5 m ρ) c).arrAt 5 cfg1.N
      = target (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) := by
  rw [h1 (V5 m ρ), V5_arg0, V5_v22, V5_v12, V5_v23, V5_v24, h0 (V1 m ρ), V1_arg0, V1_v0, V1_v1]
  have eb : (fun j : Fin 128 => (shapeCast S1x128 (m ((c : Thread nD τ).loc main_arg2)) shapeCasts_S128_S1x128 : S1x128.Idx → EReal) (ix2 0 j))
      = fun j => (m ((c : Thread nD τ).loc main_arg2) : S128.Idx → EReal) (ix1 j) := funext fun j => row_reshape _ _ j
  have eg : (fun j : Fin 128 => (shapeCast S1x128 (m ((c : Thread nD τ).loc main_arg3)) shapeCasts_S128_S1x128 : S1x128.Idx → EReal) (ix2 0 j))
      = fun j => (m ((c : Thread nD τ).loc main_arg3) : S128.Idx → EReal) (ix1 j) := funext fun j => row_reshape _ _ j
  have ebt : (fun j : Fin 128 => (shapeCast S1x128 (m ((c : Thread nD τ).loc main_arg4)) shapeCasts_S128_S1x128 : S1x128.Idx → EReal) (ix2 0 j))
      = fun j => (m ((c : Thread nD τ).loc main_arg4) : S128.Idx → EReal) (ix1 j) := funext fun j => row_reshape _ _ j
  have einv : (fun r : Fin 100000 => (shapeCast S100000x1 (Host.divf (broadcastInDim S100000 ![] bcast_S_S100000 (constant (F := Ideal) S_ .f32 0x3F800000#32))
        (ddOf (F := Ideal) (m ((c : Thread nD τ).loc main_arg5)))) shapeCasts_S100000_S100000x1 : S100000x1.Idx → EReal) (ix2 r 0))
      = fun r => Ideal.div (Ideal.ofBits .f32 0x3F800000#32) ((ddOf (F := Ideal) (m ((c : Thread nD τ).loc main_arg5)) : S100000.Idx → EReal) (ix1 r)) :=
    funext fun r => by
      rw [col_reshape (n := 100000), host_div_apply, splat_apply]
      rfl
  rw [eb, eg, ebt, einv, Cert.Spec.resMul_eq_resDiv _ _ _ (fun r => dd_ne_zero _ (ix1 r))]
  rfl

end Kernel

/-! ## The reference's side -/

section Reference
open Cert.ReferenceIdeal Cert.ReferenceIdeal.Gen Cert.ReferenceIdeal.ReadP

section AnyFamily
variable {F : FTy → Type} [FloatOps F]
variable (x0 : (⟨S100000x128, .f32⟩ : BufTy).Contents (Elt F)) (x1 : (⟨S128x128, .f32⟩ : BufTy).Contents (Elt F))
  (x2 : (⟨S128, .f32⟩ : BufTy).Contents (Elt F)) (x5 x6 : (⟨S1600000, .i32⟩ : BufTy).Contents (Elt F))

/-- The reference's aggregate is the kernel program's aggregate of the reference's messages: the same operations. -/
theorem ref_agg : val_main_v19 (F := F) x0 x1 x2 x5 x6 = Cert.KernelIdeal.Host.aggOf (F := F) (val_main_v5 (F := F) x0 x1 x2) x5 x6 := by
  unfold val_main_v19 val_main_v18 val_main_v17 val_main_v16 val_main_v15 val_main_v14 val_main_v13 val_main_v12 val_main_v11
    val_main_v10 val_main_c val_main_c_1 val_main_cst_2 Cert.KernelIdeal.Host.aggOf
  rfl

/-- The reference's clamped degree is the kernel program's: the same operations. -/
theorem ref_dd : val_main_v22 (F := F) x5 = Cert.KernelIdeal.Host.ddOf (F := F) x5 := by
  unfold val_main_v22 val_main_v21 val_main_v20 val_main_call1_v1 val_main_call1_v0 val_main_cst_4 val_main_cst_3 val_main_v9
    val_main_v8 val_main_v7 val_main_v6 val_main_cst_0 val_main_cst Cert.KernelIdeal.Host.ddOf Cert.KernelIdeal.Host.degOf
  rfl

/-- The transposed weight is the same array in both programs. -/
theorem ref_wt : val_main_v0 (F := F) x1
    = transpose Cert.KernelIdeal.S128x128 [1, 0] x1 Cert.KernelIdeal.Facts₀.transposes_S128x128_S128x128_1_0 := rfl

end AnyFamily

variable (x0 : (⟨S100000x128, .f32⟩ : BufTy).Contents (Elt Ideal)) (x1 : (⟨S128x128, .f32⟩ : BufTy).Contents (Elt Ideal))
  (x2 x3 x4 : (⟨S128, .f32⟩ : BufTy).Contents (Elt Ideal)) (x5 x6 : (⟨S1600000, .i32⟩ : BufTy).Contents (Elt Ideal))

/-- The reference's result is `target` of its arguments. -/
theorem ref_value : val_main_v42 (F := Ideal) x0 x1 x2 x3 x4 x5 x6 = target x0 x1 x2 x3 x4 x5 x6 := by
  rw [Cert.ReferenceIdeal.RefValue.out_eq]
  have hres : (fun (r : Fin 100000) (j : Fin 128) => val_main_v26 (F := Ideal) x0 x1 x2 x5 x6 (ix2 r j))
      = Cert.Spec.resDiv x0 (val_main_v19 (F := Ideal) x0 x1 x2 x5 x6) (fun r => (val_main_v22 (F := Ideal) x5 : S100000.Idx → EReal) (ix1 r)) :=
    funext fun r => funext fun j => Cert.ReferenceIdeal.RefValue.res_eq x0 x1 x2 x5 x6 r j
  rw [hres, ref_agg, Cert.ReferenceIdeal.RefValue.msg_eq, ref_dd, ref_wt]
  rfl

end Reference

end Cert.Bridge

end
-- ==== Proof.lean ====
/-
  A graph-convolution layer, kernel against reference, equal over the extended reals.

  Both programs compute, for node features `x` [100000, 128], weight `W`, bias `b`, scale `γ`, shift `β` and an edge
  list `(rows, cols)`:
    messages      m   = relu (x · Wᵀ + b)
    degree        d r = the number of edges into node r,  dd r = d r clamped away from zero (1 where d r = 0)
    aggregate     agg = the messages gathered at the edges' sources and summed into their targets
    residual      h   = x + agg / dd
    result            = h * rsqrt (mean (h * h) + ε) * γ + β   (row by row).
  The kernel runs two row-tiled regions (the linear layer with relu; the normalisation) around the same host
  gather and scatter-add as the reference, and differs from it only in arrangement: the matrix product block by block
  with narrowed operands (a change of float format is the identity on extended reals), and the residual as
  `x + agg * (1 / dd)`. Since `dd r ≠ 0` for every row, `a * (1 / dd r) = a / dd r` holds at every extended real `a`,
  so no finiteness of the inputs is used. The aggregate and the degree count stay opaque: both programs apply the
  same operations to equal operands.

  Modules: Spec (the entry-by-entry specification and the one law), Region0 / Region1 (each region's result array as
  that specification of the arrays its windows read), KernelHost (the host operations around the regions read as
  values), KernelRun (the program's run with the result array kept), RefSide (the reference's operations against the
  specification), Bridge (both programs end at one function of the arguments).
-/
import proofs.«153998_j59330678227073_1_alg».proof.Defs
import proofs.«153998_j59330678227073_1_alg».proof.Proof.Gen.Kernel
import proofs.«153998_j59330678227073_1_alg».proof.Proof.Gen.Kernel.Skeleton
import proofs.«153998_j59330678227073_1_alg».proof.Proof.Gen.Kernel.Launch
import proofs.«153998_j59330678227073_1_alg».proof.Proof.Gen.Kernel.Points
import proofs.«153998_j59330678227073_1_alg».proof.Proof.Gen.Kernel.Frame
import proofs.«153998_j59330678227073_1_alg».proof.Proof.Gen.KernelIdeal
import proofs.«153998_j59330678227073_1_alg».proof.Proof.Gen.KernelIdeal.Skeleton
import proofs.«153998_j59330678227073_1_alg».proof.Proof.Gen.KernelIdeal.Launch
import proofs.«153998_j59330678227073_1_alg».proof.Proof.Gen.KernelIdeal.Points
import proofs.«153998_j59330678227073_1_alg».proof.Proof.Gen.KernelIdeal.Frame
import proofs.«153998_j59330678227073_1_alg».proof.Proof.Gen.ReferenceIdeal
import proofs.«153998_j59330678227073_1_alg».proof.Proof.Gen.Pre_finite_inputs
import proofs.«153998_j59330678227073_1_alg».proof.Proof.KernelRun
import proofs.«153998_j59330678227073_1_alg».proof.Proof.Region0
import proofs.«153998_j59330678227073_1_alg».proof.Proof.Region1
import proofs.«153998_j59330678227073_1_alg».proof.Proof.Bridge
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and leaves its arguments unchanged: its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- From memories agreeing on the arguments both programs end at the same function of them. -/
theorem algebraic : Cert.algebraic_KernelIdeal_ReferenceIdeal := by
  intro m ρ m' ρ' _ hagree
  refine ⟨fun c => Cert.Bridge.target
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.Bridge.kernel_value m ρ c
          (fun V => Cert.KernelIdeal.Region0.final0 V c) (fun V => Cert.KernelIdeal.Region1.final1 V c)), (h c).2⟩)
      (Cert.KernelIdeal.GenP.run_result (F := Ideal) m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.ReadP.val_main_v42_eq, Cert.Bridge.ref_value]
    obtain ⟨e0, e1, e2, e3, e4, e5, e6⟩ := hagree c
    rw [e0, e1, e2, e3, e4, e5, e6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
